-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x3136 : Shape := ⟨3, ![16, 512, 3136]⟩
abbrev S512x512 : Shape := ⟨2, ![512, 512]⟩
abbrev S512 : Shape := ⟨1, ![512]⟩
abbrev S_ : Shape := ⟨0, ![]⟩

class Facts : Prop where
  bcast_S_S16x512x3136 : S_.BroadcastsInDim S16x512x3136 (![] : Fin 0 → Fin S16x512x3136.rank)
  reducesTo_S16x512x3136_S_d0_1_2 : S16x512x3136.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16x512x3136 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S16x512x3136 .f32 := Host.absf main_arg0
  let main_cst : FVec F S_ .f32 := constant S_ .f32 0x7F800000#32
  let main_v1 : FVec F S16x512x3136 .f32 := broadcastInDim S16x512x3136 ![] bcast_S_S16x512x3136 main_cst
  let main_v2 : IVec S16x512x3136 1 := cmpf .olt main_v0 main_v1
  let main_c : IVec S_ 1 := constantI S_ 1 1#1
  let main_v3 : IVec S_ 1 := (fun x v => Host.reduce IntOp.andi x v reducesTo_S16x512x3136_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16x512x3136 : Shape := ⟨3, ![16, 512, 3136]⟩
abbrev S512x512 : Shape := ⟨2, ![512, 512]⟩
abbrev S512 : Shape := ⟨1, ![512]⟩
abbrev S512x1 : Shape := ⟨2, ![512, 1]⟩
abbrev S1x512x3136 : Shape := ⟨3, ![1, 512, 3136]⟩
abbrev S512x3136 : Shape := ⟨2, ![512, 3136]⟩

abbrev nBuf : Space → Nat
  | .hbm => 15
  | .vmem => 12
  | .smem => 0
  | _ => 0

abbrev bufTy : (tb : Table) → Fin (tcTables nBuf tb) → BufTy
  | .hbm, ⟨0, _⟩ => ⟨S16x512x3136, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x512x3136, .bf16⟩
  | .hbm, ⟨8, _⟩ => ⟨S512x512, .bf16⟩
  | .hbm, ⟨9, _⟩ => ⟨S512x512, .bf16⟩
  | .hbm, ⟨10, _⟩ => ⟨S512x512, .bf16⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S16x512x3136, .f32⟩
  | .local _ .vmem, ⟨0, _⟩ => ⟨S1x512x3136, .bf16⟩
  | .local _ .vmem, ⟨1, _⟩ => ⟨S1x512x3136, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512x3136, .f32⟩
  | .local _ .vmem, ⟨9, _⟩ => ⟨S1x512x3136, .f32⟩
  | .local _ .vmem, ⟨10, _⟩ => ⟨S512x3136, .bf16⟩
  | .local _ .vmem, ⟨11, _⟩ => ⟨S512x3136, .bf16⟩
  | _, _ => ⟨S16x512x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3136 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x3136 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S512_S512x1 : S512.ShapeCasts S512x1
  inb_S1x512x3136_S1x512x3136_0_0_0 : ∀ a, (![0, 0, 0] : Fin 3 → Nat) a + S1x512x3136.size a ≤ S1x512x3136.size a
  h_S1x512x3136 : 0 < S1x512x3136.numel
  shapeCasts_S1x512x3136_S512x3136 : S1x512x3136.ShapeCasts S512x3136
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3136 : S512x1.Broadcasts S512x3136
  inb_S512x3136_S512x3136_0_0 : ∀ a, (![0, 0] : Fin 2 → Nat) a + S512x3136.size a ≤ S512x3136.size a
  h_S512x3136 : 0 < S512x3136.numel
  shapeCasts_S512x3136_S512x3136 : S512x3136.ShapeCasts S512x3136
  packedbf16_S512x3136_S512x3136_0_0 : (Rect.unit (s := S512x3136) ![0, 0] S512x3136.size inb_S512x3136_S512x3136_0_0).PackedRows (EltTy.packing .bf16)
  reduces_S512x512_S512 : S512x512.Reduces [1] S512
  broadcasts_S512x1_S512x512 : S512x1.Broadcasts S512x512
  shapeCasts_S512x3136_S1x512x3136 : S512x3136.ShapeCasts S1x512x3136
  dot_S512x512_S512x3136_S512x3136_1_0_0_1_n_n_wf : DotDims.WF S512x512 S512x3136 S512x3136 [1] [0] [0] [1] [] []
  dot_S512x3136_S512x3136_S512x512_1_1_0_0_n_n_wf : DotDims.WF S512x3136 S512x3136 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3136.size a ≤ S16x512x3136.size a
  hwx0_0 : ∀ i : grid0.Coords, EltTy.bits .bf16 = 32 ∨ (Rect.block (s := S16x512x3136) S1x512x3136.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x3136.size a ≤ S16x512x3136.size a
  hwx0_7 : ∀ i : grid0.Coords, EltTy.bits .f32 = 32 ∨ (Rect.block (s := S16x512x3136) S1x512x3136.size (cc0_transform_7 i) (hinb0_7 i)).WholeWords (EltTy.packing .f32)

variable [Facts₀]

def dot_S512x512_S512x3136_S512x3136_1_0_0_1_n_n : DotDims S512x512 S512x3136 S512x3136 where
  lhsContracting := [1]
  rhsContracting := [0]
  lhsNonContracting := [0]
  rhsNonContracting := [1]
  lhsBatch := []
  rhsBatch := []
  wf := dot_S512x512_S512x3136_S512x3136_1_0_0_1_n_n_wf
def dot_S512x3136_S512x3136_S512x512_1_1_0_0_n_n : DotDims S512x3136 S512x3136 S512x512 where
  lhsContracting := [1]
  rhsContracting := [1]
  lhsNonContracting := [0]
  rhsNonContracting := [0]
  lhsBatch := []
  rhsBatch := []
  wf := dot_S512x3136_S512x3136_S512x512_1_1_0_0_n_n_wf

abbrev win0_0 : Pipeline.Window sig grid0 :=
  Pipeline.Window.ofSpec (Memref.whole main_v0) S1x512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512x3136.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x512x3136 : Shape := ⟨3, ![16, 512, 3136]⟩
abbrev S512x512 : Shape := ⟨2, ![512, 512]⟩
abbrev S512 : Shape := ⟨1, ![512]⟩
abbrev S16x3136x512 : Shape := ⟨3, ![16, 3136, 512]⟩
abbrev S1x1x512 : Shape := ⟨3, ![1, 1, 512]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x512x3136, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x3136x512, .f32⟩
  | .hbm, ⟨8, _⟩ => ⟨S16x3136x512, .f32⟩
  | .hbm, ⟨9, _⟩ => ⟨S1x1x512, .f32⟩
  | .hbm, ⟨10, _⟩ => ⟨S16x3136x512, .f32⟩
  | .hbm, ⟨11, _⟩ => ⟨S16x3136x512, .f32⟩
  | .hbm, ⟨12, _⟩ => ⟨S16x3136x512, .f32⟩
  | .hbm, ⟨13, _⟩ => ⟨S1x1x512, .f32⟩
  | .hbm, ⟨14, _⟩ => ⟨S16x3136x512, .f32⟩
  | .hbm, ⟨15, _⟩ => ⟨S16x3136x512, .f32⟩
  | .hbm, ⟨16, _⟩ => ⟨S16x3136x512, .f32⟩
  | .hbm, ⟨17, _⟩ => ⟨S1x1x512, .f32⟩
  | .hbm, ⟨18, _⟩ => ⟨S16x3136x512, .f32⟩
  | .hbm, ⟨19, _⟩ => ⟨S16x3136x512, .f32⟩
  | .hbm, ⟨20, _⟩ => ⟨S16x512x512, .f32⟩
  | .hbm, ⟨21, _⟩ => ⟨S_, .f32⟩
  | .hbm, ⟨22, _⟩ => ⟨S16x512, .f32⟩
  | .hbm, ⟨23, _⟩ => ⟨S_, .f32⟩
  | .hbm, ⟨24, _⟩ => ⟨S16x512, .f32⟩
  | .hbm, ⟨25, _⟩ => ⟨S16x512, .f32⟩
  | .hbm, ⟨26, _⟩ => ⟨S16x512x1, .f32⟩
  | .hbm, ⟨27, _⟩ => ⟨S16x512x512, .f32⟩
  | .hbm, ⟨28, _⟩ => ⟨S16x512x512, .f32⟩
  | .hbm, ⟨29, _⟩ => ⟨S16x512x512, .f32⟩
  | .hbm, ⟨30, _⟩ => ⟨S_, .f32⟩
  | .hbm, ⟨31, _⟩ => ⟨S16x512, .f32⟩
  | .hbm, ⟨32, _⟩ => ⟨S16x512x1, .f32⟩
  | .hbm, ⟨33, _⟩ => ⟨S16x512x512, .f32⟩
  | .hbm, ⟨34, _⟩ => ⟨S16x512x512, .f32⟩
  | .hbm, ⟨35, _⟩ => ⟨S16x512x3136, .f32⟩
  | _, _ => ⟨S16x512x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  transposes_S16x512x3136_S16x3136x512_0_2_1 : S16x512x3136.Transposes [0, 2, 1] S16x3136x512
  bcast_S512_S1x1x512_2 : S512.BroadcastsInDim S1x1x512 (![2] : Fin 1 → Fin S1x1x512.rank)
  bcast_S1x1x512_S16x3136x512_0_1_2 : S1x1x512.BroadcastsInDim S16x3136x512 (![0, 1, 2] : Fin 3 → Fin S16x3136x512.rank)
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  dot_S16x3136x512_S512x512_S16x3136x512_2_1_01_0_n_n_wf : DotDims.WF S16x3136x512 S512x512 S16x3136x512 [2] [1] [0, 1] [0] [] []
  dot_S16x3136x512_S16x3136x512_S16x512x512_1_1_2_2_0_0_wf : DotDims.WF S16x3136x512 S16x3136x512 S16x512x512 [1] [1] [2] [2] [0] [0]
  dot_S16x512x512_S16x3136x512_S16x512x3136_2_2_1_1_0_0_wf : DotDims.WF S16x512x512 S16x3136x512 S16x512x3136 [2] [2] [1] [1] [0] [0]

variable [Facts₀]

def dot_S16x3136x512_S512x512_S16x3136x512_2_1_01_0_n_n : DotDims S16x3136x512 S512x512 S16x3136x512 where
  lhsContracting := [2]
  rhsContracting := [1]
  lhsNonContracting := [0, 1]
  rhsNonContracting := [0]
  lhsBatch := []
  rhsBatch := []
  wf := dot_S16x3136x512_S512x512_S16x3136x512_2_1_01_0_n_n_wf
def dot_S16x3136x512_S16x3136x512_S16x512x512_1_1_2_2_0_0 : DotDims S16x3136x512 S16x3136x512 S16x512x512 where
  lhsContracting := [1]
  rhsContracting := [1]
  lhsNonContracting := [2]
  rhsNonContracting := [2]
  lhsBatch := [0]
  rhsBatch := [0]
  wf := dot_S16x3136x512_S16x3136x512_S16x512x512_1_1_2_2_0_0_wf
def dot_S16x512x512_S16x3136x512_S16x512x3136_2_2_1_1_0_0 : DotDims S16x512x512 S16x3136x512 S16x512x3136 where
  lhsContracting := [2]
  rhsContracting := [2]
  lhsNonContracting := [1]
  rhsNonContracting := [1]
  lhsBatch := [0]
  rhsBatch := [0]
  wf := dot_S16x512x512_S16x3136x512_S16x512x3136_2_2_1_1_0_0_wf

class Facts : Prop extends Facts₀ where

variable [Facts]
-- ==== Proof.Spec.lean ====
/-
  Attention over channels, as one function of its seven arrays, on the extended reals.

  For one batch element, `X c h` is the input at channel `c` and position `h` (512 channels, 3136 positions).
  Each of the three projections turns the 512 input channels into 512 output channels, position by position:
  `proj X W B d h = (Σ_c W d c · X c h) + B d`. The logit of a pair of output channels `(d, e)` is the inner product
  of their query and key rows over ALL positions, `Σ_h Q d h · K e h`; a row of logits is turned into weights by
  the usual softmax (subtract the row's maximum, exponentiate, divide by the row's sum); and the result at
  channel `d`, position `s` is the weighted sum `Σ_e att d e · V e s` of the value rows.

  Every operation is the exact one on `[-∞, +∞]`; the maximum is folded from `-∞` and then taken against `-∞`
  once more, as both programs do, so that the two sides meet term for term and no law beyond the commutativity of
  the product is used.
-/
import Idealize.ShloMosaic.PureOps.Ideal.Laws
import Idealize.ShloMosaic.Lib.ValueIdx

noncomputable section

namespace Cert.ChannelAttention

open Idealize.ShloMosaic Idealize.ShloMosaic.ValueIdx
open scoped BigOperators

/-- The word of `-∞` in f32, read as an extended real. It is never evaluated: both programs carry the same word. -/
abbrev negInf : EReal := Ideal.ofBits .f32 0xFF800000#32

/-! ## A row of logits to a row of weights, and the weighted sum of value rows -/

section Softmax

variable (Lg : Fin 512 → Fin 512 → EReal)

/-- The largest logit of row `d`, folded from `-∞` and taken against `-∞` once more. -/
def rowMax (d : Fin 512) : EReal := max negInf ((Finset.univ : Finset (Fin 512)).fold max negInf (Lg d))

/-- The shifted exponential of a logit. -/
def expo (d e : Fin 512) : EReal := Ideal.exp (Lg d e - rowMax Lg d)

/-- The sum of row `d`'s shifted exponentials. -/
def denom (d : Fin 512) : EReal := ∑ e : Fin 512, expo Lg d e

/-- The weight of channel `e` for channel `d`. -/
def att (d e : Fin 512) : EReal := Ideal.div (expo Lg d e) (denom Lg d)

/-- The weighted sum of the value rows `Vt e` at position `s`, with row `d`'s weights. -/
def mix (Vt : Fin 512 → Fin 3136 → EReal) (d : Fin 512) (s : Fin 3136) : EReal := ∑ e : Fin 512, att Lg d e * Vt e s

end Softmax

/-! ## The projections and the logits of one batch element -/

section OneBatch

variable (X : Fin 512 → Fin 3136 → EReal)

/-- One projected row: output channel `d` at position `h`. -/
def proj (W : Fin 512 → Fin 512 → EReal) (B : Fin 512 → EReal) (d : Fin 512) (h : Fin 3136) : EReal :=
  (∑ c : Fin 512, W d c * X c h) + B d

variable (Wq Wk Wv : Fin 512 → Fin 512 → EReal) (Bq Bk Bv : Fin 512 → EReal)

/-- The logit of output channels `d` and `e`: query row `d` against key row `e`, summed over every position. -/
def logit (d e : Fin 512) : EReal := ∑ h : Fin 3136, proj X Wq Bq d h * proj X Wk Bk e h

/-- The result at channel `d`, position `s`. -/
def out (d : Fin 512) (s : Fin 3136) : EReal := mix (logit X Wq Wk Bq Bk) (proj X Wv Bv) d s

end OneBatch

/-- The whole result array `[16, 512, 3136]` as a function of the seven argument arrays: batch element `n` is
    attended by itself, with the weights and offsets shared by all sixteen. -/
def result (x : (⟨3, ![16, 512, 3136]⟩ : Shape).Idx → EReal)
    (wq : (⟨2, ![512, 512]⟩ : Shape).Idx → EReal) (bq : (⟨1, ![512]⟩ : Shape).Idx → EReal)
    (wk : (⟨2, ![512, 512]⟩ : Shape).Idx → EReal) (bk : (⟨1, ![512]⟩ : Shape).Idx → EReal)
    (wv : (⟨2, ![512, 512]⟩ : Shape).Idx → EReal) (bv : (⟨1, ![512]⟩ : Shape).Idx → EReal) :
    (⟨3, ![16, 512, 3136]⟩ : Shape).Idx → EReal := fun i =>
  out (fun c h => x (ix3 (i 0) c h)) (fun d c => wq (ix2 d c)) (fun d c => wk (ix2 d c)) (fun d c => wv (ix2 d c))
    (fun d => bq (ix1 d)) (fun d => bk (ix1 d)) (fun d => bv (ix1 d)) (i 1) (i 2)

end Cert.ChannelAttention

end
-- ==== Proof.Piece.lean ====
/-
  What one run of the body leaves in the result block, as one pure term of the seven input blocks.

  The body keeps two scratch arrays. It writes the query rows to the first and the key rows to the second, reads
  both back for the logits, then overwrites the first with the value rows and reads it back for the weighted sum.
  Every read of a scratch array comes after a store of the WHOLE array and so returns what that store wrote,
  whatever the array held before; every input block is read whole. So the result block, written whole and once, is
  the last pure term applied to the terms before it.
-/
import proofs.«133779_j28071906246667_1_alg».proof.Proof.Gen.KernelIdeal.Frame
import Idealize.ShloMosaic.Lib.Pipeline.Value

set_option maxRecDepth 16384

noncomputable section

namespace Cert.KernelIdeal.Piece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The all-zero offset of a whole rank-3 block. -/
theorem zero3 : (![0, 0, 0] : Fin 3 → Nat) = fun _ => 0 := funext fun a => by fin_cases a <;> rfl
/-- The all-zero offset of a whole rank-2 block. -/
theorem zero2 : (![0, 0] : Fin 2 → Nat) = fun _ => 0 := funext fun a => by fin_cases a <;> rfl

/-- The result block after the body: the mixing term of the logits of the query and key terms, and of the value
    term, each of the input blocks. -/
theorem out_eq (c : Dev nD) (i : grid0.Coords) (arg1 : Memref sig .tc .vmem S1x512x3136 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512x3136 .f32) (harg8 : arg8.IsWhole) (arg9 : Memref sig .tc .vmem S512x3136 .bf16) (harg9 : arg9.IsWhole) (arg10 : Memref sig .tc .vmem S512x3136 .bf16) (harg10 : arg10.IsWhole)
    (x0 : Vec F S1x512x3136 .bf16) (x1 : Vec F S512x512 .bf16) (x2 : Vec F S512x512 .bf16) (x3 : Vec F S512x512 .bf16) (x4 : Vec F S512x1 .f32) (x5 : Vec F S512x1 .f32) (x6 : Vec F S512x1 .f32) :
    out0_A_7 (F := F) c i arg1 harg1 arg2 harg2 arg3 harg3 arg4 harg4 arg5 harg5 arg6 harg6 arg7 harg7 arg8 harg8 arg9 harg9 arg10 harg10 x0 x1 x2 x3 x4 x5 x6 = k0_pay2 (k0_pay8 (k0_pay6 x0 x1 x4) (k0_pay7 x0 x2 x5)) (k0_pay1 (k0_pay3 x0) (k0_pay4 x3) (k0_pay5 x6)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  rw [View.canon_unit_zero zero3]
  simp only [View.readCov_cons_toLoadRect, View.readAt_eq_ld, harg1.read_unread, harg2.read_unread, harg3.read_unread,
    harg4.read_unread, harg5.read_unread, harg6.read_unread, harg7.read_unread,
    View.ld_unit_zero (S := S1x512x3136) zero3, View.ld_unit_zero (S := S512x512) zero2, View.ld_unit_zero (S := S512x1) zero2]

end Cert.KernelIdeal.Piece

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.LibRowRowMatmul.lean ====
/-
  A matrix product against a transposed right operand, read at an index, on the extended reals.

  For dimension numbers that contract axis 1 of BOTH operands, keep axis 0 of each as the result's two axes (the left
  operand's first) and have no batch axis — an `[M, K]` array times the transpose of an `[N, K]` array —, the product
  into a zero accumulator has at `(a, v)` the entry `Σ_k lhs[a, k] · rhs[v, k]`, the sum taken over the `K` contraction
  positions in their natural order. The library states the product's entry as a sum over the record's own contraction
  index set, with the operands read at the record's index maps; here those maps are evaluated axis by axis for such a
  record and the sum is re-indexed by the one contraction coordinate.
-/
import Idealize.ShloMosaic.PureOps.Ideal.Laws
import Idealize.ShloMosaic.Lib.ValueIdx

noncomputable section

namespace Cert.RowRowMatmul

open Idealize.ShloMosaic Idealize.ShloMosaic.ValueIdx
open scoped BigOperators

variable {M K N : ℕ} (d : DotDims ⟨2, ![M, K]⟩ ⟨2, ![N, K]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's row coordinate is the result's column coordinate: axis 0 is the right operand's only kept
    axis, and it comes after the left operand's one kept axis among the result's. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[v, k]`. -/
theorem matmul_zero_apply {φ₁ φ₂ : FTy} (hlb : d.lhsBatch = []) (hrb : d.rhsBatch = []) (hln : d.lhsNonContracting = [0])
    (hrn : d.rhsNonContracting = [0]) (hlc : d.lhsContracting = [1]) (hrc : d.rhsContracting = [1])
    (prec : Option ContractPrecision) (lhs : FVec Ideal ⟨2, ![M, K]⟩ φ₁) (rhs : FVec Ideal ⟨2, ![N, K]⟩ φ₂) (a : Fin M) (v : Fin N) :
    matmul d prec lhs rhs (constant ⟨2, ![M, N]⟩ .f32 0x00000000#32) (ix2 a v) = ∑ k : Fin K, lhs (ix2 a k) * rhs (ix2 v k) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end Cert.RowRowMatmul

end
-- ==== Proof.LibKeepdims.lean ====
/-
  Two readings at an index that a row reduction with kept dimensions meets, for any element type and any extents.

  A reduction over the columns of an `[a, b]` array leaves one value per row, an `[a]` vector. To use it against the
  `[a, b]` array again (subtract a row's maximum, divide by a row's sum) it is first cast to one column, `[a, 1]`,
  and the column is then repeated across the `b` columns. Read at `(p, q)` the result is the vector's entry `p`,
  whatever `q` is (`column_apply`). And the index that a reduction over axis 1 reads at reduced index `p` and
  coordinate `k` of the dropped axis is `(p, k)` (`lift_axis1`).
-/
import Idealize.ShloMosaic.Lib.Pipeline.Value
import Idealize.ShloMosaic.Lib.ValueIdx
import Idealize.ShloMosaic.PureOps.Reduce

noncomputable section

namespace Idealize.ShloMosaic.Keepdims

open Idealize.ShloMosaic Idealize.ShloMosaic.ValueIdx

variable {α : Type}

/-- An `[a]` vector cast to the column `[a, 1]` reads, at `(p, u)`, its entry `p`, whatever the unit coordinate. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` repeated across `b` columns reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A per-row value with its dimension kept: the `[a]` vector cast to a column and repeated across `b` columns reads,
    at `(p, q)`, the vector's entry `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) := by
  rw [broadcastTo_a1_ab_apply, shapeCast_a_a1_apply]

/-- A reduction of an `[a, b]` array over its columns reads, at row `p` and column coordinate `k`, the entry `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims

end
-- ==== Proof.Payload.lean ====
/-
  What the kernel's body computes from its blocks, read at an index, on the extended reals.

  The body is five pure terms. Three are projections: a 512 × 512 weight block times the 512 × 3136 input block, plus
  an offset column repeated along the positions; one is the logits, the query rows against the key rows over all
  3136 positions; the last turns each row of logits into weights and takes the weighted sum of the value rows.
  Narrowing a value to a shorter float format and casting a shape to itself change nothing here, and a leading axis
  of extent one is dropped from the input block and added to the result block.
-/
import proofs.«133779_j28071906246667_1_alg».proof.Proof.Gen.KernelIdeal.Skeleton
import proofs.«133779_j28071906246667_1_alg».proof.Proof.Spec
import proofs.«133779_j28071906246667_1_alg».proof.Proof.LibPlainMatmul
import proofs.«133779_j28071906246667_1_alg».proof.Proof.LibRowRowMatmul
import proofs.«133779_j28071906246667_1_alg».proof.Proof.LibKeepdims
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.ChannelAttention
open scoped BigOperators

/-- A weight block times an input block plus an offset column repeated along the positions, at `(d, h)`: the
    projection `(Σ_c w[d, c] · x[c, h]) + b[d]`. -/
theorem projT_apply (w : FVec Ideal S512x512 .bf16) (x : FVec Ideal S512x3136 .bf16) (b : FVec Ideal S512x1 .f32)
    (d : Fin 512) (h : Fin 3136) :
    addf (matmul dot_S512x512_S512x3136_S512x3136_1_0_0_1_n_n none w x (constant S512x3136 .f32 0x00000000#32))
        (broadcastTo S512x3136 b broadcasts_S512x1_S512x3136) (ix2 d h)
      = proj (fun c h => x (ix2 c h)) (fun d c => w (ix2 d c)) (fun d => b (ix2 d (0 : Fin 1))) d h := by
  rw [addf_apply, Cert.PlainMatmul.matmul_zero_apply _ rfl rfl rfl rfl rfl rfl, Keepdims.broadcastTo_a1_ab_apply]
  rfl

/-- The input block without its leading unit axis. -/
theorem pay3_apply (v0 : Vec Ideal S1x512x3136 .bf16) (c : Fin 512) (h : Fin 3136) :
    k0_pay3 (F := Ideal) v0 (ix2 c h) = v0 (ix3 (0 : Fin 1) c h) := by
  unfold k0_pay3
  exact shapeCast_1ab_ab_apply v0 _ c h

theorem pay4_eq (v6 : Vec Ideal S512x512 .bf16) : k0_pay4 (F := Ideal) v6 = v6 := by
  unfold k0_pay4
  exact shapeCast_self v6 _

theorem pay5_eq (v12 : Vec Ideal S512x1 .f32) : k0_pay5 (F := Ideal) v12 = v12 := by
  unfold k0_pay5
  exact shapeCast_self v12 _

/-- The query rows: the first weight block's projection of the input block. -/
theorem pay6_apply (v0 : Vec Ideal S1x512x3136 .bf16) (v2 : Vec Ideal S512x512 .bf16) (v8 : Vec Ideal S512x1 .f32)
    (d : Fin 512) (h : Fin 3136) :
    k0_pay6 (F := Ideal) v0 v2 v8 (ix2 d h)
      = proj (fun c h => v0 (ix3 (0 : Fin 1) c h)) (fun d c => v2 (ix2 d c)) (fun d => v8 (ix2 d (0 : Fin 1))) d h := by
  unfold k0_pay6
  simp only [shapeCast_self]
  rw [truncf_apply, projT_apply]
  simp only [pay3_apply]

/-- The key rows: the second weight block's projection of the input block. -/
theorem pay7_apply (v0 : Vec Ideal S1x512x3136 .bf16) (v4 : Vec Ideal S512x512 .bf16) (v10 : Vec Ideal S512x1 .f32)
    (d : Fin 512) (h : Fin 3136) :
    k0_pay7 (F := Ideal) v0 v4 v10 (ix2 d h)
      = proj (fun c h => v0 (ix3 (0 : Fin 1) c h)) (fun d c => v4 (ix2 d c)) (fun d => v10 (ix2 d (0 : Fin 1))) d h := by
  unfold k0_pay7
  simp only [shapeCast_self]
  rw [truncf_apply, projT_apply]
  simp only [pay3_apply]

/-- The value rows, from the input block with its unit axis already dropped. -/
theorem pay1_apply (v1 : FVec Ideal S512x3136 .bf16) (v7 : FVec Ideal S512x512 .bf16) (v13 : FVec Ideal S512x1 .f32)
    (e : Fin 512) (s : Fin 3136) :
    k0_pay1 (F := Ideal) v1 v7 v13 (ix2 e s)
      = proj (fun c h => v1 (ix2 c h)) (fun d c => v7 (ix2 d c)) (fun d => v13 (ix2 d (0 : Fin 1))) e s := by
  unfold k0_pay1
  simp only [shapeCast_self]
  rw [truncf_apply, projT_apply]

/-- The logits: row `d` of the first operand against row `e` of the second, over all positions. -/
theorem pay8_apply (a b : Vec Ideal S512x3136 .bf16) (d e : Fin 512) :
    k0_pay8 (F := Ideal) a b (ix2 d e) = ∑ h : Fin 3136, a (ix2 d h) * b (ix2 e h) := by
  unfold k0_pay8
  exact Cert.RowRowMatmul.matmul_zero_apply _ rfl rfl rfl rfl rfl rfl none a b d e

/-! ## A row of logits to a row of weights -/

/-- The row maximum: the reduction over the columns from `-∞`, taken against `-∞` once more, at row `d`. -/
theorem rowMax_apply (v30 : FVec Ideal S512x512 .f32) (d : Fin 512) :
    (maximumf (broadcast S512 (Scalar.ofBits (F := Ideal) .f32 0xFF800000#32)) (multiReduction .maximumf [1] S512 v30 0xFF800000#32 reduces_S512x512_S512 (.inl rfl) rfl)) (ix1 d) = rowMax (fun d e => v30 (ix2 d e)) d := by
  unfold rowMax
  refine congrArg (max negInf)
    ((Ideal.multiReduction_maximumf_single v30 0xFF800000#32 reduces_S512x512_S512 (.inl rfl) rfl (ix1 d)).trans ?_)
  have hf : (v30 ∘ (reduces_S512x512_S512).lift (ix1 d)) = fun k : Fin 512 => v30 (ix2 d k) :=
    funext fun k => congrArg v30 (Keepdims.lift_axis1 _ d k)
  rw [hf]
  rfl

/-- The shifted exponential at `(d, e)`: the row's maximum, kept as a column and repeated along the row, is
    subtracted before the exponential. -/
theorem expo_apply (v30 : FVec Ideal S512x512 .f32) (d e : Fin 512) :
    (exp (subf v30 (broadcastTo S512x512 (shapeCast S512x1 (maximumf (broadcast S512 (Scalar.ofBits (F := Ideal) .f32 0xFF800000#32)) (multiReduction .maximumf [1] S512 v30 0xFF800000#32 reduces_S512x512_S512 (.inl rfl) rfl)) shapeCasts_S512_S512x1) broadcasts_S512x1_S512x512))) (ix2 d e) = expo (fun d e => v30 (ix2 d e)) d e := by
  unfold expo
  exact congrArg (fun z => Ideal.exp (v30 (ix2 d e) - z))
    ((Keepdims.column_apply (maximumf (broadcast S512 (Scalar.ofBits (F := Ideal) .f32 0xFF800000#32)) (multiReduction .maximumf [1] S512 v30 0xFF800000#32 reduces_S512x512_S512 (.inl rfl) rfl)) _ _ d e).trans (rowMax_apply v30 d))

/-- The row sum of the shifted exponentials, at row `d`. -/
theorem denom_apply (v30 : FVec Ideal S512x512 .f32) (d : Fin 512) :
    (multiReduction .add [1] S512 (exp (subf v30 (broadcastTo S512x512 (shapeCast S512x1 (maximumf (broadcast S512 (Scalar.ofBits (F := Ideal) .f32 0xFF800000#32)) (multiReduction .maximumf [1] S512 v30 0xFF800000#32 reduces_S512x512_S512 (.inl rfl) rfl)) shapeCasts_S512_S512x1) broadcasts_S512x1_S512x512))) 0x00000000#32 reduces_S512x512_S512 (.inl rfl) rfl) (ix1 d) = denom (fun d e => v30 (ix2 d e)) d := by
  unfold denom
  refine (Ideal.multiReduction_add_single (exp (subf v30 (broadcastTo S512x512 (shapeCast S512x1 (maximumf (broadcast S512 (Scalar.ofBits (F := Ideal) .f32 0xFF800000#32)) (multiReduction .maximumf [1] S512 v30 0xFF800000#32 reduces_S512x512_S512 (.inl rfl) rfl)) shapeCasts_S512_S512x1) broadcasts_S512x1_S512x512))) 0x00000000#32 reduces_S512x512_S512 (.inl rfl) rfl (ix1 d)).trans ?_
  refine Finset.sum_congr rfl fun k _ => ?_
  exact (congrArg (exp (subf v30 (broadcastTo S512x512 (shapeCast S512x1 (maximumf (broadcast S512 (Scalar.ofBits (F := Ideal) .f32 0xFF800000#32)) (multiReduction .maximumf [1] S512 v30 0xFF800000#32 reduces_S512x512_S512 (.inl rfl) rfl)) shapeCasts_S512_S512x1) broadcasts_S512x1_S512x512))) (Keepdims.lift_axis1 _ d k)).trans (expo_apply v30 d _)

/-- The weight at `(d, e)`: the shifted exponential over its row's sum, the sum kept as a column and repeated. -/
theorem att_apply (v30 : FVec Ideal S512x512 .f32) (d e : Fin 512) :
    (divf (exp (subf v30 (broadcastTo S512x512 (shapeCast S512x1 (maximumf (broadcast S512 (Scalar.ofBits (F := Ideal) .f32 0xFF800000#32)) (multiReduction .maximumf [1] S512 v30 0xFF800000#32 reduces_S512x512_S512 (.inl rfl) rfl)) shapeCasts_S512_S512x1) broadcasts_S512x1_S512x512))) (broadcastTo S512x512 (shapeCast S512x1 (multiReduction .add [1] S512 (exp (subf v30 (broadcastTo S512x512 (shapeCast S512x1 (maximumf (broadcast S512 (Scalar.ofBits (F := Ideal) .f32 0xFF800000#32)) (multiReduction .maximumf [1] S512 v30 0xFF800000#32 reduces_S512x512_S512 (.inl rfl) rfl)) shapeCasts_S512_S512x1) broadcasts_S512x1_S512x512))) 0x00000000#32 reduces_S512x512_S512 (.inl rfl) rfl) shapeCasts_S512_S512x1) broadcasts_S512x1_S512x512)) (ix2 d e) = att (fun d e => v30 (ix2 d e)) d e := by
  unfold att
  exact congrArg₂ Ideal.div (expo_apply v30 d e)
    ((Keepdims.column_apply (multiReduction .add [1] S512 (exp (subf v30 (broadcastTo S512x512 (shapeCast S512x1 (maximumf (broadcast S512 (Scalar.ofBits (F := Ideal) .f32 0xFF800000#32)) (multiReduction .maximumf [1] S512 v30 0xFF800000#32 reduces_S512x512_S512 (.inl rfl) rfl)) shapeCasts_S512_S512x1) broadcasts_S512x1_S512x512))) 0x00000000#32 reduces_S512x512_S512 (.inl rfl) rfl) _ _ d e).trans (denom_apply v30 d))

/-- The result block at `(0, d, s)`: the weights of row `d` against the value rows at position `s`, the block's
    leading unit axis added last. -/
theorem pay2_apply (v30 : FVec Ideal S512x512 .f32) (v50 : Vec Ideal S512x3136 .bf16) (u : Fin 1) (d : Fin 512) (s : Fin 3136) :
    k0_pay2 (F := Ideal) v30 v50 (ix3 u d s) = mix (fun d e => v30 (ix2 d e)) (fun e s => v50 (ix2 e s)) d s := by
  unfold k0_pay2 mix
  refine (shapeCast_ab_1ab_apply _ _ u d s).trans ?_
  refine (Cert.PlainMatmul.matmul_zero_apply (φ₁ := .bf16) (φ₂ := .bf16) _ rfl rfl rfl rfl rfl rfl none _ v50 d s).trans ?_
  refine Finset.sum_congr rfl fun e _ => ?_
  exact congrArg (· * v50 (ix2 e s)) (att_apply v30 d e)

/-! ## The whole body -/

/-- The body's result block from its seven input blocks, at `(0, d, s)`: the attention of the one batch element
    the input block holds. -/
theorem body_apply (x0 : Vec Ideal S1x512x3136 .bf16) (x1 x2 x3 : Vec Ideal S512x512 .bf16) (x4 x5 x6 : Vec Ideal S512x1 .f32)
    (u : Fin 1) (d : Fin 512) (s : Fin 3136) :
    k0_pay2 (F := Ideal) (k0_pay8 (k0_pay6 x0 x1 x4) (k0_pay7 x0 x2 x5)) (k0_pay1 (k0_pay3 x0) (k0_pay4 x3) (k0_pay5 x6)) (ix3 u d s)
      = out (fun c h => x0 (ix3 (0 : Fin 1) c h)) (fun d c => x1 (ix2 d c)) (fun d c => x2 (ix2 d c)) (fun d c => x3 (ix2 d c))
          (fun d => x4 (ix2 d (0 : Fin 1))) (fun d => x5 (ix2 d (0 : Fin 1))) (fun d => x6 (ix2 d (0 : Fin 1))) d s := by
  rw [pay2_apply, pay4_eq, pay5_eq]
  have hL : (fun d e => k0_pay8 (F := Ideal) (k0_pay6 x0 x1 x4) (k0_pay7 x0 x2 x5) (ix2 d e))
      = logit (fun c h => x0 (ix3 (0 : Fin 1) c h)) (fun d c => x1 (ix2 d c)) (fun d c => x2 (ix2 d c))
          (fun d => x4 (ix2 d (0 : Fin 1))) (fun d => x5 (ix2 d (0 : Fin 1))) := by
    funext d e
    rw [pay8_apply]
    unfold logit
    refine Finset.sum_congr rfl fun h _ => ?_
    rw [pay6_apply, pay7_apply]
  have hV : (fun e s => k0_pay1 (F := Ideal) (k0_pay3 x0) x3 x6 (ix2 e s))
      = proj (fun c h => x0 (ix3 (0 : Fin 1) c h)) (fun d c => x3 (ix2 d c)) (fun d => x6 (ix2 d (0 : Fin 1))) := by
    funext e s
    rw [pay1_apply]
    simp only [pay3_apply]
  rw [hL, hV]
  rfl

end Cert.KernelIdeal.Pay

end
-- ==== Proof.Whole.lean ====
/-
  The kernel's result array after the run is the attention of Spec.lean of the arguments as launched.

  Before the kernel region the host only changes the float format of the input and of the three weight arrays,
  which is the identity on the extended reals, and casts each offset vector to one column. The grid has one point
  per batch element: at point `t` the input window holds batch element `t` whole, the weight and offset windows hold
  their arrays whole at every point, and the result window's block is batch element `t` of the result array. So what
  point `t` writes back is block `t` of the specification's function, and the sixteen blocks fill the array.
-/
import proofs.«133779_j28071906246667_1_alg».proof.Proof.Gen.KernelIdeal.Value
import proofs.«133779_j28071906246667_1_alg».proof.Proof.Spec
import proofs.«133779_j28071906246667_1_alg».proof.Proof.Piece
import proofs.«133779_j28071906246667_1_alg».proof.Proof.Payload
import proofs.«133779_j28071906246667_1_alg».proof.Proof.LibKeepdims
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.ChannelAttention

variable (m : (ℓ : Loc nD τ sig) → Buf (Elt Ideal) ℓ) (ρ : Dev nD → PrngReg)

/-- The specification's function of the seven arguments as launched on core `c`. -/
abbrev G (c : Dev nD) : S16x512x3136.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- A grid point as a batch number. -/
abbrev batchOf (t : Fin cfg0.N) : Fin 16 := ⟨t.val, t.isLt⟩

/-! ## The arrays the region finds -/

/-- The input in the shorter float format is the input. -/
theorem V_v0 (c : Dev nD) : (V m c main_v0 : S16x512x3136.Idx → EReal) = (m ((c : Thread nD τ).loc main_arg0)) := by
  dsimp only [V, hostOps0]; after_results; rfl
/-- The three weight arrays likewise. -/
theorem V_v1 (c : Dev nD) : (V m c main_v1 : S512x512.Idx → EReal) = (m ((c : Thread nD τ).loc main_arg1)) := by
  dsimp only [V, hostOps0]; after_results; rfl
theorem V_v2 (c : Dev nD) : (V m c main_v2 : S512x512.Idx → EReal) = (m ((c : Thread nD τ).loc main_arg3)) := by
  dsimp only [V, hostOps0]; after_results; rfl
theorem V_v3 (c : Dev nD) : (V m c main_v3 : S512x512.Idx → EReal) = (m ((c : Thread nD τ).loc main_arg5)) := by
  dsimp only [V, hostOps0]; after_results; rfl
/-- Each offset vector as one column. -/
theorem V_v4 (c : Dev nD) : (V m c main_v4 : S512x1.Idx → EReal) = shapeCast S512x1 (m ((c : Thread nD τ).loc main_arg2)) shapeCasts_S512_S512x1 := by
  dsimp only [V, hostOps0]; after_results; rfl
theorem V_v5 (c : Dev nD) : (V m c main_v5 : S512x1.Idx → EReal) = shapeCast S512x1 (m ((c : Thread nD τ).loc main_arg4)) shapeCasts_S512_S512x1 := by
  dsimp only [V, hostOps0]; after_results; rfl
theorem V_v6 (c : Dev nD) : (V m c main_v6 : S512x1.Idx → EReal) = shapeCast S512x1 (m ((c : Thread nD τ).loc main_arg6)) shapeCasts_S512_S512x1 := by
  dsimp only [V, hostOps0]; after_results; rfl

/-! ## Where each window's block sits in its array -/

/-- The index maps over the sixteen points: the input's and the result's block number is the point's on the batch
    axis and zero on the other two; every other window's block number is zero on both axes. -/
theorem where_blocks : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The input block at point `t` is batch element `t`. -/
theorem emb0 (t : Fin cfg0.N) (u : Fin 1) (p : Fin 512) (q : Fin 3136) :
    ((cfg0.win 0).blk t).view.emb (ix3 u p q) = ix3 (batchOf t) p q := by
  obtain ⟨e0, e1, e2, -⟩ := where_blocks t
  have hu : u.val = 0 := by omega
  funext a; apply Fin.ext
  match a with
  | ⟨0, _⟩ => show win0_0.index t (0 : Fin 3) * 1 + 1 * u.val = t.val; omega
  | ⟨1, _⟩ => show win0_0.index t (1 : Fin 3) * 512 + 1 * p.val = p.val; omega
  | ⟨2, _⟩ => show win0_0.index t (2 : Fin 3) * 3136 + 1 * q.val = q.val; omega

/-- The first weight window holds its array whole at every point. -/
theorem emb1 (t : Fin cfg0.N) (p : Fin 512) (q : Fin 512) :
    ((cfg0.win 1).blk t).view.emb (ix2 p q) = ix2 p q := by
  obtain ⟨-, -, -, a1_0, a1_1, a2_0, a2_1, a3_0, a3_1, a4_0, a4_1, a5_0, a5_1, a6_0, a6_1, -⟩ := where_blocks t
  funext a; apply Fin.ext
  match a with
  | ⟨0, _⟩ => show win0_1.index t (0 : Fin 2) * 512 + 1 * p.val = p.val; omega
  | ⟨1, _⟩ => show win0_1.index t (1 : Fin 2) * 512 + 1 * q.val = q.val; omega

/-- The second weight window likewise. -/
theorem emb2 (t : Fin cfg0.N) (p : Fin 512) (q : Fin 512) :
    ((cfg0.win 2).blk t).view.emb (ix2 p q) = ix2 p q := by
  obtain ⟨-, -, -, a1_0, a1_1, a2_0, a2_1, a3_0, a3_1, a4_0, a4_1, a5_0, a5_1, a6_0, a6_1, -⟩ := where_blocks t
  funext a; apply Fin.ext
  match a with
  | ⟨0, _⟩ => show win0_2.index t (0 : Fin 2) * 512 + 1 * p.val = p.val; omega
  | ⟨1, _⟩ => show win0_2.index t (1 : Fin 2) * 512 + 1 * q.val = q.val; omega

/-- The third weight window likewise. -/
theorem emb3 (t : Fin cfg0.N) (p : Fin 512) (q : Fin 512) :
    ((cfg0.win 3).blk t).view.emb (ix2 p q) = ix2 p q := by
  obtain ⟨-, -, -, a1_0, a1_1, a2_0, a2_1, a3_0, a3_1, a4_0, a4_1, a5_0, a5_1, a6_0, a6_1, -⟩ := where_blocks t
  funext a; apply Fin.ext
  match a with
  | ⟨0, _⟩ => show win0_3.index t (0 : Fin 2) * 512 + 1 * p.val = p.val; omega
  | ⟨1, _⟩ => show win0_3.index t (1 : Fin 2) * 512 + 1 * q.val = q.val; omega

/-- The first offset window holds its column whole at every point. -/
theorem emb4 (t : Fin cfg0.N) (p : Fin 512) (q : Fin 1) :
    ((cfg0.win 4).blk t).view.emb (ix2 p q) = ix2 p q := by
  obtain ⟨-, -, -, a1_0, a1_1, a2_0, a2_1, a3_0, a3_1, a4_0, a4_1, a5_0, a5_1, a6_0, a6_1, -⟩ := where_blocks t
  funext a; apply Fin.ext
  match a with
  | ⟨0, _⟩ => show win0_4.index t (0 : Fin 2) * 512 + 1 * p.val = p.val; omega
  | ⟨1, _⟩ => show win0_4.index t (1 : Fin 2) * 1 + 1 * q.val = q.val; omega

/-- The second offset window likewise. -/
theorem emb5 (t : Fin cfg0.N) (p : Fin 512) (q : Fin 1) :
    ((cfg0.win 5).blk t).view.emb (ix2 p q) = ix2 p q := by
  obtain ⟨-, -, -, a1_0, a1_1, a2_0, a2_1, a3_0, a3_1, a4_0, a4_1, a5_0, a5_1, a6_0, a6_1, -⟩ := where_blocks t
  funext a; apply Fin.ext
  match a with
  | ⟨0, _⟩ => show win0_5.index t (0 : Fin 2) * 512 + 1 * p.val = p.val; omega
  | ⟨1, _⟩ => show win0_5.index t (1 : Fin 2) * 1 + 1 * q.val = q.val; omega

/-- The third offset window likewise. -/
theorem emb6 (t : Fin cfg0.N) (p : Fin 512) (q : Fin 1) :
    ((cfg0.win 6).blk t).view.emb (ix2 p q) = ix2 p q := by
  obtain ⟨-, -, -, a1_0, a1_1, a2_0, a2_1, a3_0, a3_1, a4_0, a4_1, a5_0, a5_1, a6_0, a6_1, -⟩ := where_blocks t
  funext a; apply Fin.ext
  match a with
  | ⟨0, _⟩ => show win0_6.index t (0 : Fin 2) * 512 + 1 * p.val = p.val; omega
  | ⟨1, _⟩ => show win0_6.index t (1 : Fin 2) * 1 + 1 * q.val = q.val; omega

/-- The result block at point `t` is batch element `t` of the result array. -/
theorem emb7 (t : Fin cfg0.N) (u : Fin 1) (p : Fin 512) (q : Fin 3136) :
    ((cfg0.win 7).blk t).view.emb (ix3 u p q) = ix3 (batchOf t) p q := by
  obtain ⟨-, -, -, -, -, -, -, -, -, -, -, -, -, -, -, e0, e1, e2⟩ := where_blocks t
  have hu : u.val = 0 := by omega
  funext a; apply Fin.ext
  match a with
  | ⟨0, _⟩ => show win0_7.index t (0 : Fin 3) * 1 + 1 * u.val = t.val; omega
  | ⟨1, _⟩ => show win0_7.index t (1 : Fin 3) * 512 + 1 * p.val = p.val; omega
  | ⟨2, _⟩ => show win0_7.index t (2 : Fin 3) * 3136 + 1 * q.val = q.val; omega

/-! ## What a point writes back -/

/-- The specification's value depends on its seven functions only through their values. -/
theorem out_congr {X X' : Fin 512 → Fin 3136 → EReal} {Wq Wq' Wk Wk' Wv Wv' : Fin 512 → Fin 512 → EReal}
    {Bq Bq' Bk Bk' Bv Bv' : Fin 512 → EReal} (hX : X = X') (hq : Wq = Wq') (hk : Wk = Wk') (hv : Wv = Wv')
    (hbq : Bq = Bq') (hbk : Bk = Bk') (hbv : Bv = Bv') (d : Fin 512) (s : Fin 3136) :
    out X Wq Wk Wv Bq Bk Bv d s = out X' Wq' Wk' Wv' Bq' Bk' Bv' d s := by
  subst hX hq hk hv hbq hbk hbv
  rfl

/-- The body's result at point `t`, at `(0, d, s)` of its block: the specification's function at `(t, d, s)`. -/
theorem written_at (c : Dev nD) (t : Fin cfg0.N) (u : Fin 1) (d : Fin 512) (s : Fin 3136) :
    k0_pay2 (F := Ideal) (k0_pay8 (k0_pay6 (iblk m c 0 t) (iblk m c 1 t) (iblk m c 4 t)) (k0_pay7 (iblk m c 0 t) (iblk m c 2 t) (iblk m c 5 t)))
        (k0_pay1 (k0_pay3 (iblk m c 0 t)) (k0_pay4 (iblk m c 3 t)) (k0_pay5 (iblk m c 6 t))) (ix3 u d s)
      = G m c (ix3 (batchOf t) d s) := by
  refine (Pay.body_apply (iblk m c 0 t) (iblk m c 1 t) (iblk m c 2 t) (iblk m c 3 t) (iblk m c 4 t) (iblk m c 5 t) (iblk m c 6 t) u d s).trans ?_
  have hX : (fun p q => (V m c main_v0 : S16x512x3136.Idx → EReal) (((cfg0.win 0).blk t).view.emb (ix3 (0 : Fin 1) p q))) = fun p q => (m ((c : Thread nD τ).loc main_arg0)) (ix3 (batchOf t) p q) :=
    funext fun p => funext fun q => (congrArg (V m c main_v0 : S16x512x3136.Idx → EReal) (emb0 t 0 p q)).trans (congrFun (V_v0 m c) _)
  have hW1 : (fun p q => (V m c main_v1 : S512x512.Idx → EReal) (((cfg0.win 1).blk t).view.emb (ix2 p q))) = fun p q => (m ((c : Thread nD τ).loc main_arg1)) (ix2 p q) :=
    funext fun p => funext fun q => (congrArg (V m c main_v1 : S512x512.Idx → EReal) (emb1 t p q)).trans (congrFun (V_v1 m c) _)
  have hW2 : (fun p q => (V m c main_v2 : S512x512.Idx → EReal) (((cfg0.win 2).blk t).view.emb (ix2 p q))) = fun p q => (m ((c : Thread nD τ).loc main_arg3)) (ix2 p q) :=
    funext fun p => funext fun q => (congrArg (V m c main_v2 : S512x512.Idx → EReal) (emb2 t p q)).trans (congrFun (V_v2 m c) _)
  have hW3 : (fun p q => (V m c main_v3 : S512x512.Idx → EReal) (((cfg0.win 3).blk t).view.emb (ix2 p q))) = fun p q => (m ((c : Thread nD τ).loc main_arg5)) (ix2 p q) :=
    funext fun p => funext fun q => (congrArg (V m c main_v3 : S512x512.Idx → EReal) (emb3 t p q)).trans (congrFun (V_v3 m c) _)
  have hB4 : (fun p => (V m c main_v4 : S512x1.Idx → EReal) (((cfg0.win 4).blk t).view.emb (ix2 p (0 : Fin 1)))) = fun p => (m ((c : Thread nD τ).loc main_arg2)) (ix1 p) :=
    funext fun p => ((congrArg (V m c main_v4 : S512x1.Idx → EReal) (emb4 t p 0)).trans (congrFun (V_v4 m c) _)).trans
      (Keepdims.shapeCast_a_a1_apply _ _ p 0)
  have hB5 : (fun p => (V m c main_v5 : S512x1.Idx → EReal) (((cfg0.win 5).blk t).view.emb (ix2 p (0 : Fin 1)))) = fun p => (m ((c : Thread nD τ).loc main_arg4)) (ix1 p) :=
    funext fun p => ((congrArg (V m c main_v5 : S512x1.Idx → EReal) (emb5 t p 0)).trans (congrFun (V_v5 m c) _)).trans
      (Keepdims.shapeCast_a_a1_apply _ _ p 0)
  have hB6 : (fun p => (V m c main_v6 : S512x1.Idx → EReal) (((cfg0.win 6).blk t).view.emb (ix2 p (0 : Fin 1)))) = fun p => (m ((c : Thread nD τ).loc main_arg6)) (ix1 p) :=
    funext fun p => ((congrArg (V m c main_v6 : S512x1.Idx → EReal) (emb6 t p 0)).trans (congrFun (V_v6 m c) _)).trans
      (Keepdims.shapeCast_a_a1_apply _ _ p 0)
  exact out_congr hX hW1 hW2 hW3 hB4 hB5 hB6 d s

/-- WHAT POINT `t` WRITES BACK is block `t` of the specification's function of the arguments. -/
theorem written_eq (c : Dev nD) (t : Fin cfg0.N) :
    (dats m 0 c).flushed 7 t = ((cfg0.win 7).blk t).view.read (Elt Ideal) (G m c) := by
  rw [Value.flushed7_A, Piece.out_eq]
  show (fun j : S1x512x3136.Idx => k0_pay2 (F := Ideal) (k0_pay8 (k0_pay6 (iblk m c 0 t) (iblk m c 1 t) (iblk m c 4 t)) (k0_pay7 (iblk m c 0 t) (iblk m c 2 t) (iblk m c 5 t)))
        (k0_pay1 (k0_pay3 (iblk m c 0 t)) (k0_pay4 (iblk m c 3 t)) (k0_pay5 (iblk m c 6 t))) j)
      = fun j : S1x512x3136.Idx => G m c (((cfg0.win 7).blk t).view.emb j)
  funext j
  obtain ⟨u, d, s, rfl⟩ : ∃ (u : Fin 1) (d : Fin 512) (s : Fin 3136), j = ix3 u d s := ⟨j 0, j 1, j 2, eq_ix3 j⟩
  exact (written_at m c t u d s).trans (congrArg (G m c) (emb7 t u d s).symm)

/-! ## The sixteen blocks fill the array -/

/-- An index of the result array is in point `t`'s block iff each coordinate is in the block's range on its axis. -/
theorem mem_block (t : Fin cfg0.N) (i : S16x512x3136.Idx) :
    i ∈ ((cfg0.win 7).blk t).view.set ↔ ∀ a : Fin 3, win0_7.index t a * S1x512x3136.size a ≤ (i a).val ∧ (i a).val < win0_7.index t a * S1x512x3136.size a + S1x512x3136.size a := by
  show i ∈ ((View.whole main_v7).slice (win0_7.rect t)).set ↔ _
  rw [View.set_slice_whole, Rect.mem_set_unit]
  exact Iff.rfl

/-- Every index `(n, d, s)` of the result array is in the block of point `n`. -/
theorem covered (i : S16x512x3136.Idx) : ∃ t : Fin cfg0.N, (cfg0.win 7).flush t = true ∧ i ∈ ((cfg0.win 7).blk t).view.set := by
  have h0 : (i 0).val < 16 := (i 0).isLt
  have h1 : (i 1).val < 512 := (i 1).isLt
  have h2 : (i 2).val < 3136 := (i 2).isLt
  refine ⟨⟨(i 0).val, h0⟩, flush0_7 _, ?_⟩
  obtain ⟨-, -, -, -, -, -, -, -, -, -, -, -, -, -, -, e0', e1, e2⟩ := where_blocks ⟨(i 0).val, h0⟩
  have e0 : win0_7.index ⟨(i 0).val, h0⟩ (0 : Fin 3) = (i 0).val := e0'
  rw [mem_block]
  intro a
  match a with
  | ⟨0, _⟩ => show win0_7.index ⟨(i 0).val, h0⟩ (0 : Fin 3) * 1 ≤ (i 0).val ∧ (i 0).val < win0_7.index ⟨(i 0).val, h0⟩ (0 : Fin 3) * 1 + 1; rw [e0]; omega
  | ⟨1, _⟩ => show win0_7.index ⟨(i 0).val, h0⟩ (1 : Fin 3) * 512 ≤ (i 1).val ∧ (i 1).val < win0_7.index ⟨(i 0).val, h0⟩ (1 : Fin 3) * 512 + 512; rw [e1]; omega
  | ⟨2, _⟩ => show win0_7.index ⟨(i 0).val, h0⟩ (2 : Fin 3) * 3136 ≤ (i 2).val ∧ (i 2).val < win0_7.index ⟨(i 0).val, h0⟩ (2 : Fin 3) * 3136 + 3136; rw [e2]; omega

/-- THE RESULT ARRAY after the run is the specification's function of the arguments as launched. -/
theorem final (c : Dev nD) : (dats m 0 c).arrAt 7 cfg0.N = G m c :=
  (dats m 0 c).arrAt_eq_of_cover 7 (G m c) (fun t _ => written_eq m c t) covered

/-! ## The run -/

/-- Every weakly fair execution of the kernel's program terminates with the result array at the specification's
    function of the arguments, and the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefSide.lean ====
/-
  The reference's result, one operation at a time, is the attention of Spec.lean.

  The reference moves the positions in front of the channels, so its projections are `Σ_c x[n, s, c] · W[d, c]`: the
  same products as the specification's with the factors exchanged, equal because the product of extended reals
  commutes. From there on the two agree term for term: the logits contract the positions, the row maximum is the
  fold of `max` from `-∞` over a row's 512 logits (the reduction over one axis, in any order), taken against `-∞`
  once more, and the weights and the weighted sum are read through the broadcasts that keep a row's value along
  its row.
-/
import proofs.«133779_j28071906246667_1_alg».proof.Proof.Gen.ReferenceIdeal.Read
import proofs.«133779_j28071906246667_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.ChannelAttention
open scoped BigOperators

/-- The seven arguments' types. -/
abbrev Arr3 := (⟨S16x512x3136, .f32⟩ : BufTy).Contents (Elt Ideal)
abbrev Arr2 := (⟨S512x512, .f32⟩ : BufTy).Contents (Elt Ideal)
abbrev Arr1 := (⟨S512, .f32⟩ : BufTy).Contents (Elt Ideal)

/-- Batch element `n` of the input by channel and position; a weight array by its two coordinates; an offset vector
    by its coordinate. -/
abbrev Xn (x : Arr3) (n : Fin 16) : Fin 512 → Fin 3136 → EReal := fun c h => x (ix3 n c h)
abbrev Wm (w : Arr2) : Fin 512 → Fin 512 → EReal := fun d c => w (ix2 d c)
abbrev Bm (b : Arr1) : Fin 512 → EReal := fun d => b (ix1 d)

variable (x0 : Arr3) (x1 x3 x5 : Arr2) (x2 x4 x6 : Arr1)

/-- The queries at batch `n`, position `s`, channel `d`: the specification's projection with the factors exchanged. -/
theorem query_apply (n : Fin 16) (s : Fin 3136) (d : Fin 512) :
    val_main_v4 (F := Ideal) x0 x1 x2 (ix3 n s d) = proj (Xn x0 n) (Wm x1) (Bm x2) d s := by
  rw [val_main_v4_apply, val_main_v1_apply, val_main_v3_apply, val_main_v2_apply, Ideal.addf_def]
  unfold proj
  refine congrArg₂ (· + ·) (Finset.sum_congr rfl fun k _ => ?_) ?_
  · rw [val_main_v0_apply, mul_comm]
    exact congrArg₂ (· * ·)
      (congrArg x1 (funext fun a => Fin.ext (by match a with | ⟨0, _⟩ => rfl | ⟨1, _⟩ => rfl) : ridx_main_v1 (ix3 n s d) k = ix2 d k))
      (congrArg x0 (funext fun a => Fin.ext (by match a with | ⟨0, _⟩ => rfl | ⟨1, _⟩ => rfl | ⟨2, _⟩ => rfl) : idx_main_v0 (lidx_main_v1 (ix3 n s d) k) = ix3 n k s))
  · exact congrArg x2 (funext fun a => Fin.ext (by match a with | ⟨0, _⟩ => rfl) : idx_main_v2 (idx_main_v3 (ix3 n s d)) = ix1 d)

/-- The keys likewise. -/
theorem key_apply (n : Fin 16) (s : Fin 3136) (d : Fin 512) :
    val_main_v8 (F := Ideal) x0 x3 x4 (ix3 n s d) = proj (Xn x0 n) (Wm x3) (Bm x4) d s := by
  rw [val_main_v8_apply, val_main_v5_apply, val_main_v7_apply, val_main_v6_apply, Ideal.addf_def]
  unfold proj
  refine congrArg₂ (· + ·) (Finset.sum_congr rfl fun k _ => ?_) ?_
  · rw [val_main_v0_apply, mul_comm]
    exact congrArg₂ (· * ·)
      (congrArg x3 (funext fun a => Fin.ext (by match a with | ⟨0, _⟩ => rfl | ⟨1, _⟩ => rfl) : ridx_main_v5 (ix3 n s d) k = ix2 d k))
      (congrArg x0 (funext fun a => Fin.ext (by match a with | ⟨0, _⟩ => rfl | ⟨1, _⟩ => rfl | ⟨2, _⟩ => rfl) : idx_main_v0 (lidx_main_v5 (ix3 n s d) k) = ix3 n k s))
  · exact congrArg x4 (funext fun a => Fin.ext (by match a with | ⟨0, _⟩ => rfl) : idx_main_v6 (idx_main_v7 (ix3 n s d)) = ix1 d)

/-- The values likewise. -/
theorem value_apply (n : Fin 16) (s : Fin 3136) (d : Fin 512) :
    val_main_v12 (F := Ideal) x0 x5 x6 (ix3 n s d) = proj (Xn x0 n) (Wm x5) (Bm x6) d s := by
  rw [val_main_v12_apply, val_main_v9_apply, val_main_v11_apply, val_main_v10_apply, Ideal.addf_def]
  unfold proj
  refine congrArg₂ (· + ·) (Finset.sum_congr rfl fun k _ => ?_) ?_
  · rw [val_main_v0_apply, mul_comm]
    exact congrArg₂ (· * ·)
      (congrArg x5 (funext fun a => Fin.ext (by match a with | ⟨0, _⟩ => rfl | ⟨1, _⟩ => rfl) : ridx_main_v9 (ix3 n s d) k = ix2 d k))
      (congrArg x0 (funext fun a => Fin.ext (by match a with | ⟨0, _⟩ => rfl | ⟨1, _⟩ => rfl | ⟨2, _⟩ => rfl) : idx_main_v0 (lidx_main_v9 (ix3 n s d) k) = ix3 n k s))
  · exact congrArg x6 (funext fun a => Fin.ext (by match a with | ⟨0, _⟩ => rfl) : idx_main_v10 (idx_main_v11 (ix3 n s d)) = ix1 d)

/-- The logits of batch `n`: queries against keys over the positions. -/
theorem logit_apply (n : Fin 16) (d e : Fin 512) :
    val_main_v13 (F := Ideal) x0 x1 x2 x3 x4 (ix3 n d e) = (logit (Xn x0 n) (Wm x1) (Wm x3) (Bm x2) (Bm x4)) d e := by
  rw [val_main_v13_apply]
  unfold logit
  refine Finset.sum_congr rfl fun h _ => ?_
  rw [(funext fun a => Fin.ext (by match a with | ⟨0, _⟩ => rfl | ⟨1, _⟩ => rfl | ⟨2, _⟩ => rfl) : lidx_main_v13 (ix3 n d e) h = ix3 n h d),
    (funext fun a => Fin.ext (by match a with | ⟨0, _⟩ => rfl | ⟨1, _⟩ => rfl | ⟨2, _⟩ => rfl) : ridx_main_v13 (ix3 n d e) h = ix3 n h e), query_apply, key_apply]

/-- A reduction with `max` over the last axis of a `[16, 512, 512]` array, at `(n, d)`: the fold of `max` from the
    initial value over the 512 entries `(n, d, ·)`, in any order. -/
theorem rowFold_apply (y : (⟨S16x512x512, .f32⟩ : BufTy).Contents (Elt Ideal)) (init : (⟨S_, .f32⟩ : BufTy).Contents (Elt Ideal))
    (n : Fin 16) (d : Fin 512) :
    Host.reduce (FloatOps.maximumf (F := Ideal) (φ := .f32)) y init reducesTo_S16x512x512_S16x512_d2 h_S_ (ix2 n d)
      = (Finset.univ : Finset (Fin 512)).fold (FloatOps.maximumf (F := Ideal) (φ := .f32)) (init (Shape.Idx.first h_S_)) (fun e => y (ix3 n d e)) := by
  rw [Host.reduce_eq_fold_single (FloatOps.maximumf (F := Ideal) (φ := .f32)) y init reducesTo_S16x512x512_S16x512_d2 (by decide) h_S_ (ix2 n d)]
  refine congrArg (fun f => (Finset.univ : Finset (Fin 512)).fold (FloatOps.maximumf (F := Ideal) (φ := .f32)) (init (Shape.Idx.first h_S_)) f) ?_
  funext k
  exact congrArg y (funext fun a => Fin.ext (by match a with | ⟨0, _⟩ => rfl | ⟨1, _⟩ => rfl | ⟨2, _⟩ => rfl))

/-- The row maximum of batch `n`, row `d`: the fold of `max` over the row's 512 logits from the initial `-∞`, which the
    reference then takes against `-∞` once more. -/
theorem rowMax_apply (n : Fin 16) (d : Fin 512) :
    val_main_v16 (F := Ideal) x0 x1 x2 x3 x4 (ix2 n d) = rowMax (logit (Xn x0 n) (Wm x1) (Wm x3) (Bm x2) (Bm x4)) d := by
  rw [val_main_v16_apply, val_main_v15_apply, val_main_cst_0_apply, Ideal.maximumf_def, Ideal.ofBits_def]
  unfold rowMax val_main_v14
  rw [rowFold_apply]
  refine congrArg (max negInf) ?_
  have hf : (fun e : Fin 512 => val_main_v13 (F := Ideal) x0 x1 x2 x3 x4 (ix3 n d e)) = (logit (Xn x0 n) (Wm x1) (Wm x3) (Bm x2) (Bm x4)) d :=
    funext fun e => logit_apply x0 x1 x3 x2 x4 n d e
  rw [hf]
  rfl

/-- The shifted exponential of batch `n` at `(d, e)`. -/
theorem expo_apply (n : Fin 16) (d e : Fin 512) :
    val_main_v20 (F := Ideal) x0 x1 x2 x3 x4 (ix3 n d e) = expo (logit (Xn x0 n) (Wm x1) (Wm x3) (Bm x2) (Bm x4)) d e := by
  rw [val_main_v20_apply, val_main_v19_apply, val_main_v18_apply, val_main_v17_apply, logit_apply,
    (funext fun a => Fin.ext (by match a with | ⟨0, _⟩ => rfl | ⟨1, _⟩ => rfl) : idx_main_v17 (idx_main_v18 (ix3 n d e)) = ix2 n d), rowMax_apply]
  rfl

/-- The row sum of batch `n`, row `d`: the initial value is the zero word. -/
theorem denom_apply (n : Fin 16) (d : Fin 512) :
    val_main_v21 (F := Ideal) x0 x1 x2 x3 x4 (ix2 n d) = denom (logit (Xn x0 n) (Wm x1) (Wm x3) (Bm x2) (Bm x4)) d := by
  rw [val_main_v21_apply, val_main_cst_1_apply, Ideal.ofBits_def, Ideal.ofBits_zero_f32, zero_add]
  unfold denom
  refine Finset.sum_congr rfl fun k _ => ?_
  rw [(funext fun a => Fin.ext (by match a with | ⟨0, _⟩ => rfl | ⟨1, _⟩ => rfl | ⟨2, _⟩ => rfl) : idx_main_v21 (ix2 n d) k = ix3 n d k), expo_apply]

/-- The weight of batch `n` at `(d, e)`. -/
theorem att_apply (n : Fin 16) (d e : Fin 512) :
    val_main_v24 (F := Ideal) x0 x1 x2 x3 x4 (ix3 n d e) = att (logit (Xn x0 n) (Wm x1) (Wm x3) (Bm x2) (Bm x4)) d e := by
  rw [val_main_v24_apply, val_main_v23_apply, val_main_v22_apply, expo_apply,
    (funext fun a => Fin.ext (by match a with | ⟨0, _⟩ => rfl | ⟨1, _⟩ => rfl) : idx_main_v22 (idx_main_v23 (ix3 n d e)) = ix2 n d), denom_apply]
  rfl

/-- THE REFERENCE'S RESULT is the specification's function of the seven arguments. -/
theorem result_eq : val_main_v25 (F := Ideal) x0 x1 x2 x3 x4 x5 x6 = result x0 x1 x2 x3 x4 x5 x6 := by
  funext i
  obtain ⟨n, d, s, rfl⟩ : ∃ (n : Fin 16) (d : Fin 512) (s : Fin 3136), i = ix3 n d s := ⟨i 0, i 1, i 2, eq_ix3 i⟩
  rw [val_main_v25_apply]
  show _ = mix (logit (Xn x0 n) (Wm x1) (Wm x3) (Bm x2) (Bm x4)) (proj (Xn x0 n) (Wm x5) (Bm x6)) d s
  unfold mix
  refine Finset.sum_congr rfl fun e _ => ?_
  rw [(funext fun a => Fin.ext (by match a with | ⟨0, _⟩ => rfl | ⟨1, _⟩ => rfl | ⟨2, _⟩ => rfl) : lidx_main_v25 (ix3 n d s) e = ix3 n d e),
    (funext fun a => Fin.ext (by match a with | ⟨0, _⟩ => rfl | ⟨1, _⟩ => rfl | ⟨2, _⟩ => rfl) : ridx_main_v25 (ix3 n d s) e = ix3 n s e), att_apply, value_apply]

end Cert.ReferenceIdeal.RefValue

end
-- ==== Proof.lean ====
/-
  The kernel computes attention over channels, one batch element per grid point, and the reference computes the same
  with jnp; the certificate is that both, read on the extended reals, return ONE function of the seven arguments.

  For batch element `n`: the queries, keys and values are `(Σ_c W[d, c] · x[n, c, h]) + b[d]`; the logit of channels
  `(d, e)` is `Σ_h Q[d, h] · K[e, h]` over all positions; each row of logits goes through softmax (the row maximum
  subtracted, exponentials, divided by their row sum); the result is `Σ_e att[d, e] · V[e, s]` (Proof/Spec.lean).
  The kernel keeps the channels in front and multiplies the weight blocks from the left; the reference moves the
  positions in front and multiplies from the right, so its projections have the two factors of each product
  exchanged: the one law that joins the two sides is the commutativity of the product, which holds for all extended
  reals, so the precondition is not used. Changes of float format are the identity here, and a sum is one sum whatever
  order a program takes it in.

  The kernel side (Proof/Piece.lean, Payload.lean, Whole.lean): one run of the body leaves in the result block a
  pure term of the input blocks, the scratch arrays being read only after they are written whole; that term read at
  an index is the specification; the sixteen blocks fill the result array. The reference side (Proof/RefSide.lean):
  its operations read one at a time. The three frames are the programs' runs with the results dropped, and the
  idealized kernel is the kernel's own text, no rewrite applied.
-/
import proofs.«133779_j28071906246667_1_alg».proof.Defs
import proofs.«133779_j28071906246667_1_alg».proof.Proof.Gen.Kernel
import proofs.«133779_j28071906246667_1_alg».proof.Proof.Gen.Kernel.Skeleton
import proofs.«133779_j28071906246667_1_alg».proof.Proof.Gen.Kernel.Launch
import proofs.«133779_j28071906246667_1_alg».proof.Proof.Gen.Kernel.Points
import proofs.«133779_j28071906246667_1_alg».proof.Proof.Gen.Kernel.Frame
import proofs.«133779_j28071906246667_1_alg».proof.Proof.Gen.KernelIdeal
import proofs.«133779_j28071906246667_1_alg».proof.Proof.Gen.KernelIdeal.Skeleton
import proofs.«133779_j28071906246667_1_alg».proof.Proof.Gen.KernelIdeal.Launch
import proofs.«133779_j28071906246667_1_alg».proof.Proof.Gen.KernelIdeal.Points
import proofs.«133779_j28071906246667_1_alg».proof.Proof.Gen.KernelIdeal.Frame
import proofs.«133779_j28071906246667_1_alg».proof.Proof.Gen.ReferenceIdeal
import proofs.«133779_j28071906246667_1_alg».proof.Proof.Gen.Pre_finite_inputs
import proofs.«133779_j28071906246667_1_alg».proof.Proof.Gen.KernelIdeal.Value
import proofs.«133779_j28071906246667_1_alg».proof.Proof.Gen.ReferenceIdeal.Run
import proofs.«133779_j28071906246667_1_alg».proof.Proof.Gen.ReferenceIdeal.Read
import proofs.«133779_j28071906246667_1_alg».proof.Proof.Whole
import proofs.«133779_j28071906246667_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the seven arguments both programs end with the result array at the specification's
    function of those arguments: the kernel's run as Proof/Whole.lean restates it, the reference's run with its
    result term read by Proof/RefSide.lean. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
